-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S512x4x256 : Shape := ⟨3, ![512, 4, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S512x4x256 : S_.BroadcastsInDim S512x4x256 (![] : Fin 0 → Fin S512x4x256.rank)
  reducesTo_S512x4x256_S_d0_1_2 : S512x4x256.ReducesTo [0, 1, 2] S_

variable [Facts]

def fn {F : FTy → Type} [FloatOps F] (main_arg0 : FVec F S16384x256 .f32) (main_arg1 : FVec F S512x4x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S512x4x256 .f32 := Host.absf main_arg1
  let main_cst_0 : FVec F S_ .f32 := constant S_ .f32 0x7F800000#32
  let main_v5 : FVec F S512x4x256 .f32 := broadcastInDim S512x4x256 ![] bcast_S_S512x4x256 main_cst_0
  let main_v6 : IVec S512x4x256 1 := cmpf .olt main_v4 main_v5
  let main_c_1 : IVec S_ 1 := constantI S_ 1 1#1
  let main_v7 : IVec S_ 1 := (fun x v => Host.reduce IntOp.andi x v reducesTo_S512x4x256_S_d0_1_2 h_S_) main_v6 main_c_1
  let main_v8 : IVec S_ 1 := andi main_v3 main_v7
  main_v8
-- ==== Kernel.lean ====
abbrev S16384x256 : Shape := ⟨2, ![16384, 256]⟩
abbrev S512x4x256 : Shape := ⟨3, ![512, 4, 256]⟩
abbrev S4x512x256 : Shape := ⟨3, ![4, 512, 256]⟩
abbrev S2048x256 : Shape := ⟨2, ![2048, 256]⟩
abbrev S16384x512 : Shape := ⟨2, ![16384, 512]⟩
abbrev S4096x256 : Shape := ⟨2, ![4096, 256]⟩
abbrev S4096x512 : Shape := ⟨2, ![4096, 512]⟩
abbrev S2048 : Shape := ⟨1, ![2048]⟩
abbrev S2048x1 : Shape := ⟨2, ![2048, 1]⟩
abbrev S4096 : Shape := ⟨1, ![4096]⟩
abbrev S4096x1 : Shape := ⟨2, ![4096, 1]⟩
abbrev S512x256 : Shape := ⟨2, ![512, 256]⟩

abbrev nBuf : Space → Nat
  | .hbm => 6
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S512x4x256, .f32⟩
  | .hbm, ⟨2, _⟩ => ⟨S4x512x256, .f32⟩
  | .hbm, ⟨3, _⟩ => ⟨S2048x256, .f32⟩
  | .hbm, ⟨4, _⟩ => ⟨S2048x256, .bf16⟩
  | .hbm, ⟨5, _⟩ => ⟨S16384x512, .f32⟩
  | .local _ .vmem, ⟨0, _⟩ => ⟨S4096x256, .f32⟩
  | .local _ .vmem, ⟨1, _⟩ => ⟨S4096x256, .f32⟩
  | .local _ .vmem, ⟨2, _⟩ => ⟨S2048x256, .bf16⟩
  | .local _ .vmem, ⟨3, _⟩ => ⟨S4096x512, .f32⟩
  | .local _ .vmem, ⟨4, _⟩ => ⟨S4096x512, .f32⟩
  | .local _ .vmem, ⟨5, _⟩ => ⟨S2048x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x4x256_S4x512x256_1_0_2 : S512x4x256.Transposes [1, 0, 2] S4x512x256
  shapeCasts_S4x512x256_S2048x256 : S4x512x256.ShapeCasts S2048x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  packedbf16_S2048x256_S2048x256_0_0 : (Rect.unit (s := S2048x256) ![0, 0] S2048x256.size inb_S2048x256_S2048x256_0_0).PackedRows (EltTy.packing .bf16)
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  inb_S2048x256_S512x256_0_0 : ∀ a, (![0, 0] : Fin 2 → Nat) a + S512x256.size a ≤ S2048x256.size a
  h_S512x256 : 0 < S512x256.numel
  inb_S2048x256_S512x256_512_0 : ∀ a, (![512, 0] : Fin 2 → Nat) a + S512x256.size a ≤ S2048x256.size a
  inb_S2048x256_S512x256_1024_0 : ∀ a, (![1024, 0] : Fin 2 → Nat) a + S512x256.size a ≤ S2048x256.size a
  inb_S2048x256_S512x256_1536_0 : ∀ a, (![1536, 0] : Fin 2 → Nat) a + S512x256.size a ≤ S2048x256.size a
  inb_S4096x512_S4096x512_0_0 : ∀ a, (![0, 0] : Fin 2 → Nat) a + S4096x512.size a ≤ S4096x512.size a
  h_S4096x512 : 0 < S4096x512.numel
  dot_S4096x256_S512x256_S4096x512_1_1_0_0_n_n_wf : DotDims.WF S4096x256 S512x256 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S16384x512.size a
  hwx0_2 : ∀ i : grid0.Coords, EltTy.bits .f32 = 32 ∨ (Rect.block (s := S16384x512) S4096x512.size (cc0_transform_2 i) (hinb0_2 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S512x4x256 : Shape := ⟨3, ![512, 4, 256]⟩
abbrev S_ : Shape := ⟨0, ![]⟩
abbrev S16384 : Shape := ⟨1, ![16384]⟩
abbrev S16384x1 : Shape := ⟨2, ![16384, 1]⟩
abbrev S512x4 : Shape := ⟨2, ![512, 4]⟩
abbrev S512x4x1 : Shape := ⟨3, ![512, 4, 1]⟩
abbrev S16384x512x4 : Shape := ⟨3, ![16384, 512, 4]⟩
abbrev S16384x512 : Shape := ⟨2, ![16384, 512]⟩

abbrev nBuf : Space → Nat
  | .hbm => 28
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S512x4x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x256, .f32⟩
  | .hbm, ⟨11, _⟩ => ⟨S16384x256, .f32⟩
  | .hbm, ⟨12, _⟩ => ⟨S512x4x256, .f32⟩
  | .hbm, ⟨13, _⟩ => ⟨S_, .f32⟩
  | .hbm, ⟨14, _⟩ => ⟨S512x4, .f32⟩
  | .hbm, ⟨15, _⟩ => ⟨S512x4x1, .f32⟩
  | .hbm, ⟨16, _⟩ => ⟨S512x4x1, .f32⟩
  | .hbm, ⟨17, _⟩ => ⟨S_, .f32⟩
  | .hbm, ⟨18, _⟩ => ⟨S512x4x1, .f32⟩
  | .hbm, ⟨19, _⟩ => ⟨S512x4x1, .f32⟩
  | .hbm, ⟨20, _⟩ => ⟨S512x4x256, .f32⟩
  | .hbm, ⟨21, _⟩ => ⟨S512x4x256, .f32⟩
  | .hbm, ⟨22, _⟩ => ⟨S16384x512x4, .f32⟩
  | .hbm, ⟨23, _⟩ => ⟨S_, .f32⟩
  | .hbm, ⟨24, _⟩ => ⟨S16384x512x4, .f32⟩
  | .hbm, ⟨25, _⟩ => ⟨S16384x512x4, .f32⟩
  | .hbm, ⟨26, _⟩ => ⟨S_, .f32⟩
  | .hbm, ⟨27, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  reducesTo_S512x4x256_S512x4_d2 : S512x4x256.ReducesTo [2] S512x4
  bcast_S512x4_S512x4x1_0_1 : S512x4.BroadcastsInDim S512x4x1 (![0, 1] : Fin 2 → Fin S512x4x1.rank)
  bcast_S_S512x4x1 : S_.BroadcastsInDim S512x4x1 (![] : Fin 0 → Fin S512x4x1.rank)
  bcast_S512x4x1_S512x4x256_0_1_2 : S512x4x1.BroadcastsInDim S512x4x256 (![0, 1, 2] : Fin 3 → Fin S512x4x256.rank)
  bcast_S_S16384x512x4 : S_.BroadcastsInDim S16384x512x4 (![] : Fin 0 → Fin S16384x512x4.rank)
  reducesTo_S16384x512x4_S16384x512_d2 : S16384x512x4.ReducesTo [2] S16384x512
  dot_S16384x256_S512x4x256_S16384x512x4_1_2_0_01_n_n_wf : DotDims.WF S16384x256 S512x4x256 S16384x512x4 [1] [2] [0] [0, 1] [] []

variable [Facts₀]

def dot_S16384x256_S512x4x256_S16384x512x4_1_2_0_01_n_n : DotDims S16384x256 S512x4x256 S16384x512x4 where
  lhsContracting := [1]
  rhsContracting := [2]
  lhsNonContracting := [0]
  rhsNonContracting := [0, 1]
  lhsBatch := []
  rhsBatch := []
  wf := dot_S16384x256_S512x4x256_S16384x512x4_1_2_0_01_n_n_wf

class Facts : Prop extends Facts₀ where

variable [Facts]
-- ==== Proof.Spec.lean ====
/-
  The mathematics both programs compute, stated once with no program in sight.

  A row `v` of 256 extended reals is scaled to unit length with a guard `g > 0` against a vanishing norm:
  `v d / max (√(∑ v²)) g`. The same vector is obtained by guarding the SQUARED norm at `g²` under a reciprocal
  square root, `v d · (max (∑ v²) g²)^(-1/2)`, because the square root is monotone and `√(g²) = g`; at an infinite
  norm both scale by `0`. The distance of a code row `b` to class `c` is the least, over the class's four centroids
  `k`, of `1 - ⟨unit code b, unit centroid (c, k)⟩`; since `a ↦ 1 - a` reverses the order this is `1` minus the greatest of
  the four inner products.
-/
import Idealize.ShloMosaic.PureOps.Ideal
import Idealize.ShloMosaic.PureOps.Ideal.Laws
import Idealize.ShloMosaic.Lib.ValueIdx

noncomputable section

namespace Cert.Cosine

open Idealize.ShloMosaic Idealize.ShloMosaic.ValueIdx

/-! ## The guard and its square -/

/-- The guard on a norm: the real number the pattern `0x2B8CBCCC` denotes, `2305843 · 2⁻⁶¹`. -/
def guard : ℝ := 2305843 / 2305843009213693952

/-- The guard on a squared norm: `guard ^ 2 = 5316911940649 · 2⁻¹²²`. -/
def guardSq : ℝ := 5316911940649 / 5316911983139663491615228241121378304

theorem guard_pos : 0 < guard := by unfold guard; norm_num

theorem guardSq_eq : guardSq = guard ^ 2 := by unfold guardSq guard; norm_num

theorem guardSq_pos : 0 < guardSq := by rw [guardSq_eq]; exact pow_pos guard_pos 2

/-- The pattern of the guard denotes `guard`. -/
theorem ofBits_guard : Ideal.ofBits .f32 0x2B8CBCCC#32 = ((guard : ℝ) : EReal) := by
  unfold guard
  simp [Ideal.ofBits, Ideal.ieee, -EReal.coe_mul]; norm_num

/-- The pattern of one denotes `1`. -/
theorem ofBits_one : Ideal.ofBits .f32 0x3F800000#32 = 1 := by
  simp [Ideal.ofBits, Ideal.ieee, -EReal.coe_mul]; norm_num

/-- The pattern of `+∞` denotes `⊤`. -/
theorem ofBits_top : Ideal.ofBits .f32 0x7F800000#32 = ⊤ := by
  simp [Ideal.ofBits, Ideal.ieee]

/-! ## Scaling to unit length, guarded either way -/

/-- The coercion of the reals into the extended reals keeps a maximum. -/
theorem coe_max (a b : ℝ) : max (a : EReal) (b : EReal) = ((max a b : ℝ) : EReal) :=
  (EReal.coe_strictMono.monotone.map_max).symm

/-- Guarding the squared norm at `guard²` under the reciprocal square root is guarding the norm at `guard` under the
    quotient: on a real `s ≥ 0` because `√(max s g²) = max (√s) g`, at `s = ⊤` because both sides scale by `0`. -/
theorem scale_eq (x s : EReal) (hs : 0 ≤ s) :
    x * Ideal.rsqrt (max s ((guardSq : ℝ) : EReal)) = Ideal.div x (max (Ideal.sqrt s) ((guard : ℝ) : EReal)) := by
  induction s using EReal.rec with
  | bot => exact absurd hs (by simp)
  | top =>
    rw [max_eq_left le_top, Ideal.rsqrt_top, Ideal.sqrt_top, max_eq_left le_top]
    unfold Ideal.div
    rw [if_neg (by simp)]
    simp
  | coe r =>
    have hr : 0 ≤ r := by exact_mod_cast hs
    have hm : 0 < max r guardSq := lt_max_of_lt_right guardSq_pos
    have hsq : Real.sqrt (max r guardSq) = max (Real.sqrt r) guard := by
      rw [guardSq_eq]
      rcases le_total r (guard ^ 2) with h | h
      · rw [max_eq_right h, Real.sqrt_sq guard_pos.le, max_eq_right]
        exact (Real.sqrt_le_left guard_pos.le).mpr h
      · rw [max_eq_left h, max_eq_left]
        exact (Real.le_sqrt guard_pos.le hr).mpr h
    have hg : 0 < max (Real.sqrt r) guard := lt_max_of_lt_right guard_pos
    rw [coe_max, Ideal.rsqrt_coe, if_neg (not_lt.mpr hm.le), if_neg hm.ne', Ideal.sqrt_coe,
      if_neg (not_lt.mpr hr), coe_max, Ideal.div_coe hg.ne', hsq, one_div]

/-- A sum of squares of extended reals is not negative. -/
theorem sumsq_nonneg {n : Nat} (v : Fin n → EReal) : 0 ≤ ∑ k, v k * v k := by
  refine Finset.sum_nonneg fun k _ => ?_
  induction v k using EReal.rec with
  | bot => simp
  | top => simp
  | coe r => exact_mod_cast mul_self_nonneg r

/-- The squared norm of a row. -/
def sumsq (v : Fin 256 → EReal) : EReal := ∑ k, v k * v k

/-- A row's entry scaled to unit length, the norm guarded under the quotient. -/
def unit (v : Fin 256 → EReal) (d : Fin 256) : EReal :=
  Ideal.div (v d) (max (Ideal.sqrt (sumsq v)) ((guard : ℝ) : EReal))

/-- The same entry with the squared norm guarded under the reciprocal square root. -/
theorem scaled_eq_unit (v : Fin 256 → EReal) (d : Fin 256) :
    v d * Ideal.rsqrt (max (sumsq v) ((guardSq : ℝ) : EReal)) = unit v d :=
  scale_eq (v d) (sumsq v) (sumsq_nonneg v)

/-! ## The least of four distances is one minus the greatest of four inner products -/

theorem one_sub_max (a b : EReal) : 1 - max a b = min (1 - a) (1 - b) := by
  rcases le_total a b with h | h
  · rw [max_eq_right h, min_eq_right (EReal.sub_le_sub le_rfl h)]
  · rw [max_eq_left h, min_eq_left (EReal.sub_le_sub le_rfl h)]

theorem fold_min_four (f : Fin 4 → EReal) :
    (Finset.univ : Finset (Fin 4)).fold min ⊤ f = min (min (min (f 0) (f 1)) (f 2)) (f 3) := by
  have e : (Finset.univ : Finset (Fin 4)) = {0, 1, 2, 3} := by decide
  rw [e]
  simp only [Finset.fold_insert (by decide : (0 : Fin 4) ∉ ({1, 2, 3} : Finset (Fin 4))),
    Finset.fold_insert (by decide : (1 : Fin 4) ∉ ({2, 3} : Finset (Fin 4))),
    Finset.fold_insert (by decide : (2 : Fin 4) ∉ ({3} : Finset (Fin 4))), Finset.fold_singleton, min_top_right]
  rw [min_assoc, min_assoc]

theorem one_sub_max_four (f : Fin 4 → EReal) :
    1 - max (max (max (f 0) (f 1)) (f 2)) (f 3) = (Finset.univ : Finset (Fin 4)).fold min ⊤ fun k => 1 - f k := by
  rw [fold_min_four, one_sub_max, one_sub_max, one_sub_max]

/-! ## The result, as one function of the two argument arrays -/

/-- Row `b` of the codes. -/
def codeRow (codes : (⟨2, ![16384, 256]⟩ : Shape).Idx → EReal) (b : Fin 16384) : Fin 256 → EReal :=
  fun d => codes (ix2 b d)

/-- Centroid `k` of class `c`. -/
def centRow (cents : (⟨3, ![512, 4, 256]⟩ : Shape).Idx → EReal) (c : Fin 512) (k : Fin 4) : Fin 256 → EReal :=
  fun d => cents (ix3 c k d)

/-- The inner product of a code row and a centroid, each scaled to unit length. -/
def sim (codes : (⟨2, ![16384, 256]⟩ : Shape).Idx → EReal) (cents : (⟨3, ![512, 4, 256]⟩ : Shape).Idx → EReal)
    (b : Fin 16384) (c : Fin 512) (k : Fin 4) : EReal :=
  ∑ d : Fin 256, unit (codeRow codes b) d * unit (centRow cents c k) d

/-- The distance of code row `b` to the nearest of class `c`'s four centroids. -/
def dist (codes : (⟨2, ![16384, 256]⟩ : Shape).Idx → EReal) (cents : (⟨3, ![512, 4, 256]⟩ : Shape).Idx → EReal) :
    (⟨2, ![16384, 512]⟩ : Shape).Idx → EReal :=
  fun j => (Finset.univ : Finset (Fin 4)).fold min ⊤ fun k => 1 - sim codes cents (j 0) (j 1) k

theorem dist_apply (codes : (⟨2, ![16384, 256]⟩ : Shape).Idx → EReal) (cents : (⟨3, ![512, 4, 256]⟩ : Shape).Idx → EReal)
    (b : Fin 16384) (c : Fin 512) :
    dist codes cents (ix2 b c) = (Finset.univ : Finset (Fin 4)).fold min ⊤ fun k => 1 - sim codes cents b c k := rfl

end Cert.Cosine

end
-- ==== Proof.RefValue.lean ====
/-
  The reference's result is `dist`.

  Each stage of the reference is read at an index by the generated read lemmas. A code row is divided by the greater
  of its norm — the square root of the sum over the row of the squares — and the guard; a centroid likewise, its
  row running over the last axis; the contraction pairs code row `b` with centroid `(c, k)` over `d`; and the
  reduction over the last axis from `+∞` with `min` is the fold of `min` over the four `k`.
-/
import proofs.«134740_g82910048682287_cont_9to1_m_1149_17_alg».proof.Proof.Gen.ReferenceIdeal.Read
import proofs.«134740_g82910048682287_cont_9to1_m_1149_17_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Cosine

/-- A code row's entry after the reference's scaling is its unit-length entry. -/
theorem codes_unit (x0 : (⟨S16384x256, .f32⟩ : BufTy).Contents (Elt Ideal)) (b : Fin 16384) (d : Fin 256) :
    val_main_v7 (F := Ideal) x0 (ix2 b d) = unit (codeRow x0 b) d := by
  have e : ∀ k : Fin 256, idx_main_v1 (idx_main_v2 (idx_main_v6 (ix2 b d))) k = ix2 b k := fun k =>
    funext fun a => Fin.ext (by match a with | ⟨0, _⟩ => rfl | ⟨1, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, e, Ideal.hostDivf_def, Ideal.hostUnary_sqrt_def, Ideal.maximumf_def, Ideal.mulf_def,
    Ideal.ofBits_def, Ideal.ofBits_zero_f32, zero_add, ofBits_guard]
  rfl

/-- A centroid's entry after the reference's scaling is its unit-length entry. -/
theorem cents_unit (x1 : (⟨S512x4x256, .f32⟩ : BufTy).Contents (Elt Ideal)) (c : Fin 512) (k : Fin 4) (d : Fin 256) :
    val_main_v15 (F := Ideal) x1 (ix3 c k d) = unit (centRow x1 c k) d := by
  have e : ∀ q : Fin 256, idx_main_v9 (idx_main_v10 (idx_main_v14 (ix3 c k d))) q = ix3 c k q := fun q =>
    funext fun a => Fin.ext (by match a with | ⟨0, _⟩ => rfl | ⟨1, _⟩ => rfl | ⟨2, _⟩ => rfl)
  rw [val_main_v15_apply, val_main_v14_apply, val_main_v13_apply, val_main_v11_apply, val_main_v10_apply, val_main_v9_apply,
    val_main_v12_apply, val_main_cst_2_apply, val_main_cst_1_apply]
  simp only [val_main_v8_apply, e, Ideal.hostDivf_def, Ideal.hostUnary_sqrt_def, Ideal.maximumf_def, Ideal.mulf_def,
    Ideal.ofBits_def, Ideal.ofBits_zero_f32, zero_add, ofBits_guard]
  rfl

/-- One entry of the reference's distances before the reduction: one minus the inner product of the unit vectors. -/
theorem one_sub_sim (x0 : (⟨S16384x256, .f32⟩ : BufTy).Contents (Elt Ideal)) (x1 : (⟨S512x4x256, .f32⟩ : BufTy).Contents (Elt Ideal))
    (b : Fin 16384) (c : Fin 512) (k : Fin 4) :
    val_main_v18 (F := Ideal) x0 x1 (ix3 b c k) = 1 - sim x0 x1 b c k := by
  have el : ∀ q : Fin 256, lidx_main_v16 (ix3 b c k) q = ix2 b q := fun q =>
    funext fun a => Fin.ext (by match a with | ⟨0, _⟩ => rfl | ⟨1, _⟩ => rfl)
  have er : ∀ q : Fin 256, ridx_main_v16 (ix3 b c k) q = ix3 c k q := fun q =>
    funext fun a => Fin.ext (by match a with | ⟨0, _⟩ => rfl | ⟨1, _⟩ => rfl | ⟨2, _⟩ => rfl)
  rw [val_main_v18_apply, val_main_v17_apply, val_main_cst_3_apply, val_main_v16_apply]
  simp only [el, er, codes_unit, cents_unit, Ideal.subf_def, Ideal.ofBits_def, ofBits_one]
  rfl

/-- The reference's result array, as a function of the two argument arrays, is `dist`. -/
theorem result_eq (x0 : (⟨S16384x256, .f32⟩ : BufTy).Contents (Elt Ideal)) (x1 : (⟨S512x4x256, .f32⟩ : BufTy).Contents (Elt Ideal)) :
    val_main_v19 (F := Ideal) x0 x1 = dist x0 x1 := by
  funext j
  obtain ⟨b, c, rfl⟩ : ∃ (b : Fin 16384) (c : Fin 512), j = ix2 b c := ⟨j 0, j 1, eq_ix2 j⟩
  have h : S16384x512x4.Reduces [2] S16384x512 := by decide
  have hl : ∀ k : Fin 4, h.lift (ix2 b c) k = ix3 b c k := fun k =>
    funext fun a => Fin.ext (by match a with | ⟨0, _⟩ => rfl | ⟨1, _⟩ => rfl | ⟨2, _⟩ => rfl)
  unfold val_main_v19
  rw [Host.reduce_eq_fold_single FloatOps.minimumf _ _ reducesTo_S16384x512x4_S16384x512_d2 h h_S_, dist_apply]
  have hf : (val_main_v18 (F := Ideal) x0 x1 ∘ h.lift (ix2 b c)) = fun k : Fin 4 => 1 - sim x0 x1 b c k :=
    funext fun (k : Fin 4) => (congrArg (val_main_v18 (F := Ideal) x0 x1) (hl k)).trans (one_sub_sim x0 x1 b c k)
  rw [hf, val_main_cst_4_apply]
  show Finset.fold min (Ideal.ofBits .f32 0x7F800000#32) _ _ = _
  rw [ofBits_top]
  rfl

end Cert.ReferenceIdeal.RefValue

end
-- ==== Proof.Pieces.lean ====
/-
  What one run of the kernel body leaves behind, as values.

  The body keeps a table of 2048 rows in a buffer of its own. At the first grid point it fills the table with
  the scaled rows of its second operand and then reads the table back; at every other point it finds the table as the
  point before left it. Either way the block it stores is ONE function of its first operand's block and of the
  table's four bands of 512 consecutive rows, starting at rows 0, 512, 1024 and 1536.
-/
import proofs.«134740_g82910048682287_cont_9to1_m_1149_17_alg».proof.Proof.Gen.KernelIdeal.Value
import Idealize.ShloMosaic.Lib.Pipeline.Value
import Idealize.ShloMosaic.Lib.Pipeline.RowLoads
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.RowLoads Idealize.ShloMosaic.ValueIdx

variable {F : FTy → Type} [FloatOps F] [Named F]

theorem hz : (![0, 0] : Fin 2 → Nat) = fun _ => 0 := funext fun a => by fin_cases a <;> rfl

/-- A load of 512 rows from row `off` of a table reads those rows. -/
theorem ld_band (X : Vec F S2048x256 .bf16) (off : Nat) (h : off + 512 ≤ 2048)
    (inb : ∀ a, (![off, 0] : Fin 2 → Nat) a + S512x256.size a ≤ S2048x256.size a) :
    View.ld X (Rect.unit (s := S2048x256) ![off, 0] S512x256.size inb) = rowsFrom 512 X off h := by
  funext j
  unfold rowsFrom
  refine congrArg X (funext fun a => Fin.ext ?_)
  fin_cases a
  · show off + 1 * (j 0).val = off + (j 0).val; omega
  · show 0 + 1 * (j 1).val = (j 1).val; omega

/-- The same load after ONE store of the whole table reads those rows of what was stored. -/
theorem readCov_band {sig : RefSig} {κ : Kind} {sp : Space} (v : View sig κ sp S2048x256 .bf16) (P : Vec F S2048x256 .bf16)
    (off : Nat) (h : off + 512 ≤ 2048)
    (inbP : ∀ a, (![0, 0] : Fin 2 → Nat) a + S2048x256.size a ≤ S2048x256.size a)
    (inb : ∀ a, (![off, 0] : Fin 2 → Nat) a + S512x256.size a ≤ S2048x256.size a) :
    v.readCov [(⟨Rect.unit (s := S2048x256) ![0, 0] S2048x256.size inbP, P⟩ : View.Piece (Elt F) S2048x256 .bf16)]
        (Rect.unit (s := S2048x256) ![off, 0] S512x256.size inb).toLoadRect
      = rowsFrom 512 P off h := by
  rw [View.readCov_eq_canon', View.canon_unit_zero hz]
  exact ld_band P off h inb

section Cases
variable (c : Dev nD) (i : grid0.Coords) (a1 : Memref sig .tc .vmem S4096x256 .f32) (h1 : a1.IsWhole)
  (a2 : Memref sig .tc .vmem S2048x256 .bf16) (h2 : a2.IsWhole) (a3 : Memref sig .tc .vmem S4096x512 .f32) (h3 : a3.IsWhole)
  (a4 : Memref sig .tc .vmem S2048x256 .bf16) (h4 : a4.IsWhole)

/-- At the first point the table is filled with the scaled rows of the second operand's block. -/
theorem table_first (hc : cond0_0 i) (x0 : Vec F S4096x256 .f32) (x1 : Vec F S2048x256 .bf16) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero hz]
  simp only [View.readAt_eq_ld, h2.read_unread, View.ld_unit_zero (S := S2048x256) hz]

/-- At the first point the stored block is computed from the first operand's block and the bands of the table just filled. -/
theorem block_first (hc : cond0_0 i) (x0 : Vec F S4096x256 .f32) (x1 : Vec F S2048x256 .bf16) :
    out0_A_2 c i a1 h1 a2 h2 a3 h3 a4 h4 hc x0 x1
      = k0_pay2 x0 (rowsFrom 512 (k0_pay1 x1) 0 (by omega)) (rowsFrom 512 (k0_pay1 x1) 512 (by omega))
          (rowsFrom 512 (k0_pay1 x1) 1024 (by omega)) (rowsFrom 512 (k0_pay1 x1) 1536 (by omega)) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz]
  simp only [View.readAt_eq_ld, h1.read_unread, h2.read_unread, View.ld_unit_zero (S := S4096x256) hz,
    View.ld_unit_zero (S := S2048x256) hz, readCov_band _ _ 0 (by omega), readCov_band _ _ 512 (by omega),
    readCov_band _ _ 1024 (by omega), readCov_band _ _ 1536 (by omega)]

/-- At any later point the stored block is computed from the first operand's block and the bands of the table the point
    before left. -/
theorem block_later (hc : ¬cond0_0 i) (x0 : Vec F S4096x256 .f32) (x1 xs : Vec F S2048x256 .bf16) :
    out0_B_2 c i a1 h1 a2 h2 a3 h3 a4 h4 hc x0 x1 xs
      = k0_pay2 x0 (rowsFrom 512 xs 0 (by omega)) (rowsFrom 512 xs 512 (by omega))
          (rowsFrom 512 xs 1024 (by omega)) (rowsFrom 512 xs 1536 (by omega)) := by
  unfold out0_B_2
  rw [View.read_writes_eq_canon _ _ _ (cover0_B_2 c i a1 h1 a2 h2 a3 h3 a4 h4 hc x0 x1 xs)]
  unfold kernelRun0_B
  dsimp only
  rw [View.canon_unit_zero hz]
  simp only [View.readAt_eq_ld, h1.read_unread, h4.read_unread, View.ld_unit_zero (S := S4096x256) hz,
    ld_band _ 0 (by omega), ld_band _ 512 (by omega), ld_band _ 1024 (by omega), ld_band _ 1536 (by omega)]

end Cases

end Cert.KernelIdeal.Pieces

end
-- ==== Proof.Payload.lean ====
/-
  The kernel body's two stored values, read at an index over the extended reals.

  The table's row `r` is the second operand's row `r` scaled to unit length: each entry times the reciprocal square root
  of the greater of the row's sum of squares and the squared guard, which is the entry over the greater of the
  row's norm and the guard. The stored block at `(p, q)` is `1` minus the greatest, over the four bands, of the inner
  product of the first operand's row `p`, scaled the same way, with row `q` of the band: a matrix product against the
  band's transpose contracts over the 256 columns of both.
-/
import proofs.«134740_g82910048682287_cont_9to1_m_1149_17_alg».proof.Proof.Gen.KernelIdeal.Skeleton
import proofs.«134740_g82910048682287_cont_9to1_m_1149_17_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Cosine

/-- The named guard on a squared norm denotes `guardSq`. -/
theorem named_guardSq : Named.named (F := Ideal) κ "eps_sq" (φ := .f32) 0x179ABE15#32 = ((guardSq : ℝ) : EReal) := by
  unfold guardSq
  exact IdealRules.named_const.ideal_named_scalar _ _ _ _ rfl

/-- A change of float format is the identity on extended reals. -/
theorem truncf_id {s : Shape} {φ ψ : FTy} (a : FVec Ideal s φ) (h : ψ.bits < φ.bits) : (truncf ψ a h : FVec Ideal s ψ) = a := rfl
theorem extf_id {s : Shape} {φ ψ : FTy} (a : FVec Ideal s φ) (h : φ.bits < ψ.bits) : (extf ψ a h : FVec Ideal s ψ) = a := rfl

/-! ## A row scaled by the reciprocal square root of its guarded sum of squares -/

/-- Rows of 256 entries: each entry times the reciprocal square root of the greater of its row's sum of squares and `eps`,
    the sum kept as a column and spread back over the row. -/
theorem scaled_apply {n : Nat} (v : FVec Ideal ⟨2, ![n, 256]⟩ .f32)
    (hred : (⟨2, ![n, 256]⟩ : Shape).Reduces [1] ⟨1, ![n]⟩) (hφ : FKind.Formats .f32)
    (hacc : (0x00000000#32 : BitVec 32) = FKind.add.neutral .f32 hφ)
    (hcast : (⟨1, ![n]⟩ : Shape).ShapeCasts ⟨2, ![n, 1]⟩) (hb : (⟨2, ![n, 1]⟩ : Shape).Broadcasts ⟨2, ![n, 256]⟩)
    (eps : Ideal .f32) (r : Fin n) (d : Fin 256) :
    mulf v (broadcastTo ⟨2, ![n, 256]⟩ (rsqrt (maximumf (shapeCast ⟨2, ![n, 1]⟩
        (multiReduction .add [1] ⟨1, ![n]⟩ (mulf v v) 0x00000000#32 hred hφ hacc) hcast) (broadcast ⟨2, ![n, 1]⟩ eps))) hb) (ix2 r d)
      = v (ix2 r d) * Ideal.rsqrt (max (∑ k : Fin 256, v (ix2 r k) * v (ix2 r k)) eps) := by
  have hk : ∀ a : Fin (⟨2, ![n, 1]⟩ : Shape).rank, ((ix2 r (0 : Fin 1) : (⟨2, ![n, 1]⟩ : Shape).Idx) a).val
      = if (⟨2, ![n, 1]⟩ : Shape).size a = 1 then 0
        else ((ix2 r d : (⟨2, ![n, 256]⟩ : Shape).Idx) ⟨a.val + ((⟨2, ![n, 256]⟩ : Shape).rank - (⟨2, ![n, 1]⟩ : Shape).rank), by
          have := hb.1; have := a.isLt; omega⟩).val := fun a => by
    match a with
    | ⟨0, _⟩ =>
      show r.val = if n = 1 then 0 else r.val
      split
      · have := r.isLt; omega
      · rfl
    | ⟨1, _⟩ => show 0 = if (1 : Nat) = 1 then 0 else d.val; rw [if_pos rfl]
  have hrm : ((⟨1, ![n]⟩ : Shape).rowMajor (ix1 r)).val = ((⟨2, ![n, 1]⟩ : Shape).rowMajor (ix2 r (0 : Fin 1))).val := by
    rw [Shape.rowMajor_val_one, Shape.rowMajor_val_two]
    show r.val = r.val * 1 + 0
    omega
  have hl : ∀ k : Fin 256, hred.lift (ix1 r) k = ix2 r k := fun k => funext fun c => Fin.ext (by fin_cases c <;> rfl)
  show v (ix2 r d) * _ = _
  rw [broadcastTo_apply _ hb (ix2 r d) (ix2 r (0 : Fin 1)) hk]
  show v (ix2 r d) * Ideal.rsqrt (max (shapeCast ⟨2, ![n, 1]⟩ _ hcast (ix2 r (0 : Fin 1))) eps) = _
  rw [shapeCast_apply _ hcast (ix2 r (0 : Fin 1)) (ix1 r) hrm]
  refine congrArg (fun s => v (ix2 r d) * Ideal.rsqrt (max s eps)) ?_
  refine (Ideal.multiReduction_add_single (mulf v v) 0x00000000#32 hred hφ hacc (ix1 r)).trans ?_
  exact Finset.sum_congr rfl fun k _ => by rw [hl k]; rfl

/-! ## The table -/

/-- The table's entry `(r, d)` is the operand's row `r` scaled to unit length, at `d`. -/
theorem table_apply (v : FVec Ideal S2048x256 .bf16) (r : Fin 2048) (d : Fin 256) :
    k0_pay1 (F := Ideal) v (ix2 r d) = unit (fun k => v (ix2 r k)) d := by
  unfold k0_pay1
  dsimp only
  simp only [shapeCast_self, truncf_id, extf_id]
  refine (scaled_apply (n := 2048) v _ _ _ _ _ _ r d).trans ?_
  rw [named_guardSq]
  exact scaled_eq_unit (fun k => v (ix2 r k)) d

/-! ## The matrix product against a band's transpose -/

theorem lhs_0 (i : S4096x512.Idx) (q : dot_S4096x256_S512x256_S4096x512_1_1_0_0_n_n.contr.Idx) :
    (dot_S4096x256_S512x256_S4096x512_1_1_0_0_n_n.lhsIdx i q 0).val = (i 0).val := by
  unfold DotDims.lhsIdx
  rw [dif_neg (show ¬(0 : Fin S4096x256.rank) ∈ dot_S4096x256_S512x256_S4096x512_1_1_0_0_n_n.lhsBatch by decide), dif_pos (show (0 : Fin S4096x256.rank) ∈ dot_S4096x256_S512x256_S4096x512_1_1_0_0_n_n.lhsNonContracting by decide)]
  rfl
theorem lhs_1 (i : S4096x512.Idx) (q : dot_S4096x256_S512x256_S4096x512_1_1_0_0_n_n.contr.Idx) :
    (dot_S4096x256_S512x256_S4096x512_1_1_0_0_n_n.lhsIdx i q 1).val = (q ⟨0, by decide⟩).val :=
  dot_S4096x256_S512x256_S4096x512_1_1_0_0_n_n.lhsIdx_val_of_single rfl i q
theorem rhs_0 (i : S4096x512.Idx) (q : dot_S4096x256_S512x256_S4096x512_1_1_0_0_n_n.contr.Idx) :
    (dot_S4096x256_S512x256_S4096x512_1_1_0_0_n_n.rhsIdx i q 0).val = (i 1).val := by
  unfold DotDims.rhsIdx
  rw [dif_neg (show ¬(0 : Fin S512x256.rank) ∈ dot_S4096x256_S512x256_S4096x512_1_1_0_0_n_n.rhsBatch by decide), dif_pos (show (0 : Fin S512x256.rank) ∈ dot_S4096x256_S512x256_S4096x512_1_1_0_0_n_n.rhsNonContracting by decide)]
  rfl
theorem rhs_1 (i : S4096x512.Idx) (q : dot_S4096x256_S512x256_S4096x512_1_1_0_0_n_n.contr.Idx) :
    (dot_S4096x256_S512x256_S4096x512_1_1_0_0_n_n.rhsIdx i q 1).val = (q ⟨0, by decide⟩).val :=
  dot_S4096x256_S512x256_S4096x512_1_1_0_0_n_n.rhsIdx_val_of_single rfl i q

/-- Into a zero accumulator the product of `l` with the transpose of `b` is, at `(p, q)`, the inner product of row `p` of
    `l` and row `q` of `b`. -/
theorem matmul_rows (l : FVec Ideal S4096x256 .bf16) (b : FVec Ideal S512x256 .bf16) (p : Fin 4096) (q : Fin 512) :
    matmul dot_S4096x256_S512x256_S4096x512_1_1_0_0_n_n none l b (constant S4096x512 .f32 0x00000000#32) (ix2 p q)
      = ∑ k : Fin 256, l (ix2 p k) * b (ix2 q k) := by
  simp only [matmul]
  rw [Ideal.matmul_constant_zero_apply, ← Equiv.sum_comp (ValueIdx.contrEquiv1 dot_S4096x256_S512x256_S4096x512_1_1_0_0_n_n 256 rfl rfl).symm]
  refine Finset.sum_congr rfl fun k _ => ?_
  have hk := ValueIdx.contrEquiv1_symm_val dot_S4096x256_S512x256_S4096x512_1_1_0_0_n_n 256 rfl rfl k
  have el : dot_S4096x256_S512x256_S4096x512_1_1_0_0_n_n.lhsIdx (ix2 p q) ((ValueIdx.contrEquiv1 dot_S4096x256_S512x256_S4096x512_1_1_0_0_n_n 256 rfl rfl).symm k) = ix2 p k := funext fun a => Fin.ext (by
    match a with
    | ⟨0, _⟩ => exact lhs_0 _ _
    | ⟨1, _⟩ => exact (lhs_1 _ _).trans hk)
  have er : dot_S4096x256_S512x256_S4096x512_1_1_0_0_n_n.rhsIdx (ix2 p q) ((ValueIdx.contrEquiv1 dot_S4096x256_S512x256_S4096x512_1_1_0_0_n_n 256 rfl rfl).symm k) = ix2 q k := funext fun a => Fin.ext (by
    match a with
    | ⟨0, _⟩ => exact rhs_0 _ _
    | ⟨1, _⟩ => exact (rhs_1 _ _).trans hk)
  rw [el, er]

/-! ## The stored block -/

/-- The first operand's block, row by row scaled to unit length. -/
theorem codes_apply (x : FVec Ideal S4096x256 .f32) (hred : S4096x256.Reduces [1] S4096) (hφ : FKind.Formats .f32)
    (hacc : (0x00000000#32 : BitVec 32) = FKind.add.neutral .f32 hφ) (hcast : S4096.ShapeCasts S4096x1)
    (hb : S4096x1.Broadcasts S4096x256) (p : Fin 4096) (k : Fin 256) :
    mulf x (broadcastTo S4096x256 (rsqrt (maximumf (shapeCast S4096x1
        (multiReduction .add [1] S4096 (mulf x x) 0x00000000#32 hred hφ hacc) hcast)
        (broadcast S4096x1 (Named.named (F := Ideal) κ "eps_sq" (φ := .f32) 0x179ABE15#32)))) hb) (ix2 p k)
      = unit (fun k' => x (ix2 p k')) k := by
  refine (scaled_apply (n := 4096) x hred hφ hacc hcast hb _ p k).trans ?_
  rw [named_guardSq]
  exact scaled_eq_unit (fun k' => x (ix2 p k')) k

/-- The stored block at `(p, q)`: one minus the greatest of the four inner products of the scaled row `p` with row `q` of
    each band. -/
theorem block_apply (x : FVec Ideal S4096x256 .f32) (b0 b1 b2 b3 : FVec Ideal S512x256 .bf16) (p : Fin 4096) (q : Fin 512) :
    k0_pay2 (F := Ideal) x b0 b1 b2 b3 (ix2 p q)
      = 1 - max (max (max (∑ k : Fin 256, unit (fun k' => x (ix2 p k')) k * b0 (ix2 q k))
            (∑ k : Fin 256, unit (fun k' => x (ix2 p k')) k * b1 (ix2 q k)))
            (∑ k : Fin 256, unit (fun k' => x (ix2 p k')) k * b2 (ix2 q k)))
            (∑ k : Fin 256, unit (fun k' => x (ix2 p k')) k * b3 (ix2 q k)) := by
  unfold k0_pay2
  dsimp only
  simp only [subf_apply, maximumf_apply, broadcast_apply, matmul_rows, truncf_id]
  show Ideal.ofBits .f32 0x3F800000#32 - _ = _
  rw [ofBits_one]
  refine congrArg (fun z => (1 : EReal) - z) ?_
  refine congrArg₂ max (congrArg₂ max (congrArg₂ max ?_ ?_) ?_) ?_ <;>
    exact Finset.sum_congr rfl fun k _ => congrArg (fun z => z * _) (codes_apply x _ _ _ _ _ p k)

end Cert.KernelIdeal.Payload

end
-- ==== Proof.BlockValue.lean ====
/-
  One stored block is a block of `dist`.

  Let the block `X` hold rows `4096 t + p` of the codes and let the table `T` hold, at row `512 k + q`, centroid `k` of
  class `q` (the centroids laid out `k` first). Band `k` of the scaled table then holds at row `q` the unit vector of that
  centroid, the block's row `p` scales to the unit vector of code row `4096 t + p`, and one minus the greatest of the four
  inner products is the least of the four distances.
-/
import proofs.«134740_g82910048682287_cont_9to1_m_1149_17_alg».proof.Proof.Payload
import Idealize.ShloMosaic.Lib.Pipeline.RowLoads

noncomputable section

namespace Cert.KernelIdeal.Payload

open Cert.KernelIdeal Cert.KernelIdeal.Gen Idealize.ShloMosaic Idealize.ShloMosaic.ValueIdx Idealize.ShloMosaic.RowLoads Cert.Cosine

/-- Row `q` of band `k` of the scaled table is the unit vector of centroid `k` of class `q`. -/
theorem band_row (cents : FVec Ideal S512x4x256 .f32) (T : FVec Ideal S2048x256 .bf16)
    (hT : ∀ (k : Fin 4) (q : Fin 512) (d : Fin 256), T (ix2 (⟨512 * k.val + q.val, by omega⟩ : Fin 2048) d) = cents (ix3 q k d))
    (k : Fin 4) (h : 512 * k.val + 512 ≤ 2048) (q : Fin 512) (d : Fin 256) :
    rowsFrom 512 (k0_pay1 (F := Ideal) T) (512 * k.val) h (ix2 q d) = unit (centRow cents q k) d := by
  unfold rowsFrom
  refine (table_apply T _ d).trans ?_
  refine congrArg (fun v => unit v d) (funext fun d' => ?_)
  exact hT k q d'

theorem block_eq_dist (codes : FVec Ideal S16384x256 .f32) (cents : FVec Ideal S512x4x256 .f32)
    (X : FVec Ideal S4096x256 .f32) (T : FVec Ideal S2048x256 .bf16) (t : Nat) (ht : t < 4)
    (hX : ∀ (p : Fin 4096) (d : Fin 256), X (ix2 p d) = codes (ix2 (⟨4096 * t + p.val, by omega⟩ : Fin 16384) d))
    (hT : ∀ (k : Fin 4) (q : Fin 512) (d : Fin 256), T (ix2 (⟨512 * k.val + q.val, by omega⟩ : Fin 2048) d) = cents (ix3 q k d))
    (p : Fin 4096) (q : Fin 512) :
    k0_pay2 (F := Ideal) X (rowsFrom 512 (k0_pay1 (F := Ideal) T) 0 (by omega)) (rowsFrom 512 (k0_pay1 (F := Ideal) T) 512 (by omega))
        (rowsFrom 512 (k0_pay1 (F := Ideal) T) 1024 (by omega)) (rowsFrom 512 (k0_pay1 (F := Ideal) T) 1536 (by omega)) (ix2 p q)
      = dist codes cents (ix2 (⟨4096 * t + p.val, by omega⟩ : Fin 16384) q) := by
  have hrow : (fun d => X (ix2 p d)) = codeRow codes (⟨4096 * t + p.val, by omega⟩ : Fin 16384) := funext fun d => hX p d
  rw [block_apply, dist_apply, ← one_sub_max_four, hrow]
  have hs : ∀ (k : Fin 4) (o : Nat) (ho : o = 512 * k.val) (h : o + 512 ≤ 2048),
      (∑ d : Fin 256, unit (codeRow codes (⟨4096 * t + p.val, by omega⟩ : Fin 16384)) d * rowsFrom 512 (k0_pay1 (F := Ideal) T) o h (ix2 q d))
        = sim codes cents (⟨4096 * t + p.val, by omega⟩ : Fin 16384) q k := by
    intro k o ho h
    subst ho
    unfold sim
    exact Finset.sum_congr rfl fun d _ => congrArg (fun z => _ * z) (band_row cents T hT k h q d)
  rw [hs 0 0 rfl, hs 1 512 rfl, hs 2 1024 rfl, hs 3 1536 rfl]

end Cert.KernelIdeal.Payload

end
-- ==== Proof.Blocks.lean ====
/-
  The kernel's result array is `dist` of its two arguments.

  Before the region the centroids are laid out centroid-first: row `512 k + q` of the table's array is centroid `k` of
  class `q`. The grid has four points; point `t` reads rows `4096 t … 4096 t + 4095` of the codes and the whole table, and
  writes rows `4096 t …` of the result. The kernel's own buffer holds the scaled table after EVERY point: the first point
  fills it, the others leave it alone. So every point stores the block of `dist` its rows name, and the four blocks tile
  the result.
-/
import proofs.«134740_g82910048682287_cont_9to1_m_1149_17_alg».proof.Proof.Pieces
import proofs.«134740_g82910048682287_cont_9to1_m_1149_17_alg».proof.Proof.BlockValue
import Idealize.ShloMosaic.Lib.StableHlo.Run

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Idealize.ShloMosaic.RowLoads Cert.Cosine
open Idealize.ShloMosaic.Pipeline (Dat)

variable (m : (ℓ : Loc nD τ sig) → Buf (Elt Ideal) ℓ) (ρ : Dev nD → PrngReg)

/-- The two argument arrays on core `c`, and the result they determine. -/
abbrev codes (c : Dev nD) : FVec Ideal S16384x256 .f32 := m ((c : Thread nD τ).loc main_arg0)
abbrev cents (c : Dev nD) : FVec Ideal S512x4x256 .f32 := m ((c : Thread nD τ).loc main_arg1)
abbrev result (c : Dev nD) : Buf (Elt Ideal) ((c : Thread nD τ).loc main_v3) := dist (codes m c) (cents m c)

/-- The table's array as the region finds it. -/
abbrev table (c : Dev nD) : Vec Ideal S2048x256 .bf16 := V m c main_v2

/-- The block a point stores, from its block of the codes and the table it finds in the kernel's buffer. -/
def blockOf (X : Vec Ideal S4096x256 .f32) (T : Vec Ideal S2048x256 .bf16) : Vec Ideal S4096x512 .f32 :=
  k0_pay2 (F := Ideal) X (rowsFrom 512 T 0 (by omega)) (rowsFrom 512 T 512 (by omega)) (rowsFrom 512 T 1024 (by omega))
    (rowsFrom 512 T 1536 (by omega))

/-! ## The arrays the region reads -/

/-- Row `512 k + q` of the table's array is centroid `k` of class `q`: the transpose puts `k` first, the reshape
    merges `(k, q)` into one row index, the change of format is the identity. -/
theorem table_entry (c : Dev nD) (k : Fin 4) (q : Fin 512) (d : Fin 256) :
    table m c (ix2 (⟨512 * k.val + q.val, by omega⟩ : Fin 2048) d) = cents m c (ix3 q k d) := by
  have e : @Eq (S2048x256.Idx → EReal) (V m c main_v2)
      (truncf (F := Ideal) .bf16 (shapeCast S2048x256 (transpose S4x512x256 [1, 0, 2] (m ((c : Thread nD τ).loc main_arg1))
          transposes_S512x4x256_S4x512x256_1_0_2) shapeCasts_S4x512x256_S2048x256) bitsLt_bf16_f32) := by
    dsimp only [Gen.V, Gen.hostOps0]; after_results; rfl
  show (V m c main_v2 : S2048x256.Idx → EReal) _ = _
  rw [e, Payload.truncf_id]
  rw [shapeCast_apply _ shapeCasts_S4x512x256_S2048x256 (ix2 (⟨512 * k.val + q.val, by omega⟩ : Fin 2048) d) (ix3 k q d) (by
    rw [Shape.rowMajor_val_three, Shape.rowMajor_val_two]
    show (k.val * 512 + q.val) * 256 + d.val = (512 * k.val + q.val) * 256 + d.val
    omega)]
  exact transpose_apply [1, 0, 2] _ transposes_S512x4x256_S4x512x256_1_0_2 (ix3 k q d) (ix3 q k d) (fun b => by
    match b with
    | ⟨0, _⟩ => rfl
    | ⟨1, _⟩ => rfl
    | ⟨2, _⟩ => rfl)

/-- The printed index maps, decided over the four points: the codes' and the result's blocks advance with the point, the
    table's block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_four (t : Fin cfg0.N) : t.val < 4 := lt_of_lt_of_eq t.isLt (show cfg0.N = 4 from N_0)

/-- Point `t`'s block of the codes holds rows `4096 t + p`. -/
theorem codes_block (c : Dev nD) (t : Fin cfg0.N) (p : Fin 4096) (d : Fin 256) :
    (iblk m c 0 t : Vec Ideal S4096x256 .f32) (ix2 p d)
      = codes m c (ix2 (⟨4096 * t.val + p.val, by have := lt_four t; omega⟩ : Fin 16384) d) := by
  obtain ⟨e0, e1, -, -, -, -⟩ := idx_facts t
  show V m c main_arg0 (((cfg0.win 0).blk t).view.emb (ix2 p d)) = _
  rw [V_main_arg0]
  refine congrArg (m ((c : Thread nD τ).loc main_arg0)) (funext fun a => Fin.ext ?_)
  match a with
  | ⟨0, _⟩ => show win0_0.index t (0 : Fin 2) * 4096 + 1 * p.val = 4096 * t.val + p.val; omega
  | ⟨1, _⟩ => show win0_0.index t (1 : Fin 2) * 256 + 1 * d.val = d.val; omega

/-- Every point's block of the table is the whole table. -/
theorem table_block (c : Dev nD) (t : Fin cfg0.N) : (iblk m c 1 t : Vec Ideal S2048x256 .bf16) = table m c := by
  obtain ⟨-, -, e0, e1, -, -⟩ := idx_facts t
  funext y
  show V m c main_v2 (((cfg0.win 1).blk t).view.emb y) = V m c main_v2 y
  refine congrArg (V m c main_v2) (funext fun a => Fin.ext ?_)
  match a with
  | ⟨0, _⟩ => show win0_1.index t (0 : Fin 2) * 2048 + 1 * (y 0).val = (y 0).val; omega
  | ⟨1, _⟩ => show win0_1.index t (1 : Fin 2) * 256 + 1 * (y 1).val = (y 1).val; omega

/-! ## The kernel's buffer holds the scaled table after every point -/

theorem table_kept (c : Dev nD) : ∀ (n : ℕ) (hn : n < cfg0.N), (outsAt0 m c n hn).2 = k0_pay1 (F := Ideal) (table m c)
  | 0, hn => by
    rw [outsAt0_A m c ⟨0, hn⟩ rfl]
    dsimp only
    exact (Pieces.table_first (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) scM0_0 (Memref.isWhole_whole _) ((hcond0_0 ⟨0, hn⟩).mpr (Nat.zero_mod _))
      (iblk m c 0 ⟨0, hn⟩) (iblk m c 1 ⟨0, hn⟩)).trans (congrArg (k0_pay1 (F := Ideal)) (table_block m c ⟨0, hn⟩))
  | n + 1, hn => by
    have hN : cfg0.N = 4 := N_0
    have hB : ¬(⟨n + 1, hn⟩ : Fin cfg0.N).val % 4 = 0 := by dsimp only; omega
    rw [outsAt0_B m c ⟨n + 1, hn⟩ hB]
    dsimp only
    unfold sout0_B_0
    exact table_kept c n (Nat.lt_of_succ_lt hn)

/-- What point `t` leaves in the result's staging buffer. -/
theorem stored (c : Dev nD) (t : Fin cfg0.N) :
    (outsAt0 m c t.val t.isLt).1 = blockOf (iblk m c 0 t) (k0_pay1 (F := Ideal) (table m c)) := by
  by_cases h0 : t.val % 4 = 0
  · rw [outsAt0_A m c t h0]
    dsimp only
    exact (Pieces.block_first (F := Ideal) c (grid0.coords t) (ms0_0 t) (hs0_0 t) (ms0_1 t) (hs0_1 t) (ms0_2 t) (hs0_2 t) scM0_0
      (Memref.isWhole_whole _) ((hcond0_0 t).mpr h0) (iblk m c 0 t) (iblk m c 1 t)).trans
      (congrArg (fun T => blockOf (iblk m c 0 t) (k0_pay1 (F := Ideal) T)) (table_block m c t))
  · rw [outsAt0_B m c t h0]
    dsimp only
    exact (Pieces.block_later (F := Ideal) c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2).trans
      (congrArg (blockOf (iblk m c 0 t)) (table_kept m c (t.val - 1) _))

/-! ## Every point writes back its block of the result -/

theorem flushed_eq (c : Dev nD) (t : Fin cfg0.N) :
    (dats m 0 c).flushed 2 t = ((cfg0.win 2).blk t).view.read (Elt Ideal) (result m c) := by
  obtain ⟨-, -, -, -, e0, e1⟩ := idx_facts t
  have ht := lt_four t
  rw [flushed2, stored]
  funext j
  show blockOf (iblk m c 0 t) (k0_pay1 (F := Ideal) (table m c)) j = dist (codes m c) (cents m c) (((cfg0.win 2).blk t).view.emb j)
  have hj0 : (j 0).val < 4096 := (j 0).isLt
  have hemb : ((cfg0.win 2).blk t).view.emb j
      = ix2 (⟨4096 * t.val + (j 0).val, by omega⟩ : Fin 16384) (j 1 : Fin 512) := funext fun a => Fin.ext (by
    match a with
    | ⟨0, _⟩ => show win0_2.index t (0 : Fin 2) * 4096 + 1 * (j 0).val = 4096 * t.val + (j 0).val; omega
    | ⟨1, _⟩ => show win0_2.index t (1 : Fin 2) * 512 + 1 * (j 1).val = (j 1).val; omega)
  rw [hemb]
  refine (congrArg (blockOf (iblk m c 0 t) (k0_pay1 (F := Ideal) (table m c))) (eq_ix2 j)).trans ?_
  exact Payload.block_eq_dist (codes m c) (cents m c) (iblk m c 0 t) (table m c) t.val ht (codes_block m c t)
    (table_entry m c) (j 0) (j 1)

/-- The four blocks tile the result: row `r` is in the block of point `r / 4096`. -/
theorem covered (c : Dev nD) (i : S16384x512.Idx) :
    ∃ t : Fin cfg0.N, (cfg0.win 2).flush t = true ∧ i ∈ ((cfg0.win 2).blk t).view.set := by
  have hi0 : (i 0).val < 16384 := (i 0).isLt
  have hi1 : (i 1).val < 512 := (i 1).isLt
  have hlt : (i 0).val / 4096 < cfg0.N := by rw [show cfg0.N = 4 from N_0]; omega
  obtain ⟨t, ht⟩ : ∃ t : Fin cfg0.N, t.val = (i 0).val / 4096 := ⟨⟨(i 0).val / 4096, hlt⟩, rfl⟩
  obtain ⟨-, -, -, -, e0, e1⟩ := idx_facts t
  refine ⟨t, flush0_2 t, ?_⟩
  show i ∈ ((View.whole main_v3).slice (win0_2.rect t)).set
  rw [View.set_slice_whole, Rect.mem_set_unit]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 512 ≤ (i 1).val ∧ (i 1).val < win0_2.index t (1 : Fin 2) * 512 + 512
    omega

/-- So the result array ends holding `dist` of the arguments. -/
theorem final (c : Dev nD) : (dats m 0 c).arrAt 2 cfg0.N = result m c :=
  (dats m 0 c).arrAt_eq_of_cover 2 (result m c) (fun t _ => flushed_eq m c t) (covered c)

/-- The run, read: the result array at `dist` of the argument arrays, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.lean ====
/-
  Nearest-centroid cosine distance: `out[b, c] = min over k of (1 - ⟨u(codes b), u(centroids c k)⟩)`, where `u` scales a
  row of 256 numbers to unit length with a guard against a vanishing norm.

  The reference divides a row by `max (√(∑ v²)) g`, with `g` the number its guard's pattern denotes, contracts code
  rows with centroids over the 256 columns, subtracts from one and takes the least over the four centroids of a class.
  The kernel multiplies a row by `(max (∑ v²) g²)^(-1/2)`, its guard on the SQUARED norm named as exactly `g²`; it lays
  the centroids out centroid-first, scales them once into a buffer it keeps across its four grid points, takes four
  matrix products of the scaled code rows against the four bands of that buffer, the greatest of the four, and
  subtracts it from one. Over the extended reals the two scalings are one function (the square root is monotone and
  `√(g²) = g`; an infinite norm scales by zero on both sides), sums may be taken in any order, and subtraction from one
  turns the greatest into the least. Both result arrays are `Cert.Cosine.dist` of the arguments.

  The three frames are the generated ones (the reference's is its run with the result dropped); the two conjuncts of
  `preserves` are the named guard's statement at its two sites.
-/
import proofs.«134740_g82910048682287_cont_9to1_m_1149_17_alg».proof.Defs
import proofs.«134740_g82910048682287_cont_9to1_m_1149_17_alg».proof.Proof.Gen.Kernel
import proofs.«134740_g82910048682287_cont_9to1_m_1149_17_alg».proof.Proof.Gen.Kernel.Skeleton
import proofs.«134740_g82910048682287_cont_9to1_m_1149_17_alg».proof.Proof.Gen.Kernel.Launch
import proofs.«134740_g82910048682287_cont_9to1_m_1149_17_alg».proof.Proof.Gen.Kernel.Points
import proofs.«134740_g82910048682287_cont_9to1_m_1149_17_alg».proof.Proof.Gen.Kernel.Frame
import proofs.«134740_g82910048682287_cont_9to1_m_1149_17_alg».proof.Proof.Gen.KernelIdeal
import proofs.«134740_g82910048682287_cont_9to1_m_1149_17_alg».proof.Proof.Gen.KernelIdeal.Skeleton
import proofs.«134740_g82910048682287_cont_9to1_m_1149_17_alg».proof.Proof.Gen.KernelIdeal.Launch
import proofs.«134740_g82910048682287_cont_9to1_m_1149_17_alg».proof.Proof.Gen.KernelIdeal.Points
import proofs.«134740_g82910048682287_cont_9to1_m_1149_17_alg».proof.Proof.Gen.KernelIdeal.Frame
import proofs.«134740_g82910048682287_cont_9to1_m_1149_17_alg».proof.Proof.Gen.ReferenceIdeal
import proofs.«134740_g82910048682287_cont_9to1_m_1149_17_alg».proof.Proof.Gen.Pre_finite_inputs
import proofs.«134740_g82910048682287_cont_9to1_m_1149_17_alg».proof.Proof.RefValue
import proofs.«134740_g82910048682287_cont_9to1_m_1149_17_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The guard on the squared norm is named the square of the reference's guard, at both sites that spell it. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "eps_sq" .f32 0x179ABE15#32
      ((5316911940649 / 5316911983139663491615228241121378304 : ℝ) : EReal) rfl⟩

/-- From memories that agree on the two arguments both programs end with the result array at `dist` of them. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v19_eq _ _).trans (Cert.ReferenceIdeal.RefValue.result_eq _ _)).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
